-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S256x3 : Shape := ⟨2, ![256, 3]⟩
abbrev S256 : Shape := ⟨1, ![256]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S256x3 : S_.BroadcastsInDim S256x3 (![] : Fin 0 → Fin S256x3.rank)
  reducesTo_S256x3_S_d0_1 : S256x3.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x3 1) : IVec S_ 1 :=
  let main_c_5 : IVec S_ 1 := constantI S_ 1 1#1
  let main_v17 : IVec S_ 1 := (fun x v => Host.reduce IntOp.andi x v reducesTo_S256x3_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x65536x3 .f32) (main_arg1 : FVec F S256x3 .f32) (main_arg2 : FVec F S256 .f32) (main_arg3 : FVec F S256x3 .f32) (main_arg4 : FVec F S256 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S256x3 .f32 := Host.absf main_arg1
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x3 .f32 := Host.absf main_arg3
  let main_cst_4 : FVec F S_ .f32 := constant S_ .f32 0x7F800000#32
  let main_v15 : FVec F S256x3 .f32 := broadcastInDim S256x3 ![] bcast_S_S256x3 main_cst_4
  let main_v16 : IVec S256x3 1 := cmpf .olt main_v14 main_v15
  fn_part1 (F := F) main_arg4 main_v13 main_v16
-- ==== Kernel.lean ====
abbrev S4x65536x3 : Shape := ⟨3, ![4, 65536, 3]⟩
abbrev S256x3 : Shape := ⟨2, ![256, 3]⟩
abbrev S256 : Shape := ⟨1, ![256]⟩
abbrev S262144x3 : Shape := ⟨2, ![262144, 3]⟩
abbrev S3x256 : Shape := ⟨2, ![3, 256]⟩
abbrev S_ : Shape := ⟨0, ![]⟩
abbrev S1x256 : Shape := ⟨2, ![1, 256]⟩
abbrev S262144x256 : Shape := ⟨2, ![262144, 256]⟩
abbrev S4x65536x256 : Shape := ⟨3, ![4, 65536, 256]⟩
abbrev S8192x3 : Shape := ⟨2, ![8192, 3]⟩
abbrev S8192x256 : Shape := ⟨2, ![8192, 256]⟩
abbrev S8192 : Shape := ⟨1, ![8192]⟩
abbrev S8192x1 : Shape := ⟨2, ![8192, 1]⟩

abbrev nBuf : Space → Nat
  | .hbm => 16
  | .vmem => 9
  | .smem => 0
  | _ => 0

abbrev bufTy : (tb : Table) → Fin (tcTables nBuf tb) → BufTy
  | .hbm, ⟨0, _⟩ => ⟨S4x65536x3, .f32⟩
  | .hbm, ⟨1, _⟩ => ⟨S256x3, .f32⟩
  | .hbm, ⟨2, _⟩ => ⟨S256, .f32⟩
  | .hbm, ⟨3, _⟩ => ⟨S256x3, .f32⟩
  | .hbm, ⟨4, _⟩ => ⟨S256, .f32⟩
  | .hbm, ⟨5, _⟩ => ⟨S262144x3, .f32⟩
  | .hbm, ⟨6, _⟩ => ⟨S3x256, .f32⟩
  | .hbm, ⟨7, _⟩ => ⟨S3x256, .f32⟩
  | .hbm, ⟨8, _⟩ => ⟨S256x3, .f32⟩
  | .hbm, ⟨9, _⟩ => ⟨S_, .f32⟩
  | .hbm, ⟨10, _⟩ => ⟨S256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S262144x256, .f32⟩
  | .hbm, ⟨15, _⟩ => ⟨S4x65536x256, .f32⟩
  | .local _ .vmem, ⟨0, _⟩ => ⟨S8192x3, .f32⟩
  | .local _ .vmem, ⟨1, _⟩ => ⟨S8192x3, .f32⟩
  | .local _ .vmem, ⟨2, _⟩ => ⟨S3x256, .f32⟩
  | .local _ .vmem, ⟨3, _⟩ => ⟨S1x256, .f32⟩
  | .local _ .vmem, ⟨4, _⟩ => ⟨S3x256, .f32⟩
  | .local _ .vmem, ⟨5, _⟩ => ⟨S1x256, .f32⟩
  | .local _ .vmem, ⟨6, _⟩ => ⟨S1x256, .f32⟩
  | .local _ .vmem, ⟨7, _⟩ => ⟨S8192x256, .f32⟩
  | .local _ .vmem, ⟨8, _⟩ => ⟨S8192x256, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x65536x3_S262144x3 : S4x65536x3.ShapeCasts S262144x3
  transposes_S256x3_S3x256_1_0 : S256x3.Transposes [1, 0] S3x256
  reducesTo_S256x3_S256_d1 : S256x3.ReducesTo [1] S256
  h_S_ : 0 < S_.numel
  shapeCasts_S256_S1x256 : S256.ShapeCasts S1x256
  shapeCasts_S262144x256_S4x65536x256 : S262144x256.ShapeCasts S4x65536x256
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  reduces_S8192x3_S8192 : S8192x3.Reduces [1] S8192
  shapeCasts_S8192_S8192x1 : S8192.ShapeCasts S8192x1
  broadcasts_S8192x1_S8192x256 : S8192x1.Broadcasts S8192x256
  inb_S8192x256_S8192x256_0_0 : ∀ a, (![0, 0] : Fin 2 → Nat) a + S8192x256.size a ≤ S8192x256.size a
  h_S8192x256 : 0 < S8192x256.numel
  dot_S8192x3_S3x256_S8192x256_1_0_0_1_n_n_wf : DotDims.WF S8192x3 S3x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S262144x3.size a
  hwx0_0 : ∀ i : grid0.Coords, EltTy.bits .f32 = 32 ∨ (Rect.block (s := S262144x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x256.size a ≤ S262144x256.size a
  hwx0_6 : ∀ i : grid0.Coords, EltTy.bits .f32 = 32 ∨ (Rect.block (s := S262144x256) S8192x256.size (cc0_transform_6 i) (hinb0_6 i)).WholeWords (EltTy.packing .f32)

variable [Facts₀]

def dot_S8192x3_S3x256_S8192x256_1_0_0_1_n_n : DotDims S8192x3 S3x256 S8192x256 where
  lhsContracting := [1]
  rhsContracting := [0]
  lhsNonContracting := [0]
  rhsNonContracting := [1]
  lhsBatch := []
  rhsBatch := []
  wf := dot_S8192x3_S3x256_S8192x256_1_0_0_1_n_n_wf

abbrev win0_0 : Pipeline.Window sig grid0 :=
  Pipeline.Window.ofSpec (Memref.whole main_call0_v0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S8192x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x65536x3 : Shape := ⟨3, ![4, 65536, 3]⟩
abbrev S256x3 : Shape := ⟨2, ![256, 3]⟩
abbrev S256 : Shape := ⟨1, ![256]⟩
abbrev S4x65536x256 : Shape := ⟨3, ![4, 65536, 256]⟩
abbrev S1x1x256 : Shape := ⟨3, ![1, 1, 256]⟩
abbrev S_ : Shape := ⟨0, ![]⟩
abbrev S4x65536 : Shape := ⟨2, ![4, 65536]⟩
abbrev S4x65536x1 : Shape := ⟨3, ![4, 65536, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S256x3, .f32⟩
  | .hbm, ⟨2, _⟩ => ⟨S256, .f32⟩
  | .hbm, ⟨3, _⟩ => ⟨S256x3, .f32⟩
  | .hbm, ⟨4, _⟩ => ⟨S256, .f32⟩
  | .hbm, ⟨5, _⟩ => ⟨S4x65536x256, .f32⟩
  | .hbm, ⟨6, _⟩ => ⟨S1x1x256, .f32⟩
  | .hbm, ⟨7, _⟩ => ⟨S4x65536x256, .f32⟩
  | .hbm, ⟨8, _⟩ => ⟨S4x65536x256, .f32⟩
  | .hbm, ⟨9, _⟩ => ⟨S4x65536x3, .f32⟩
  | .hbm, ⟨10, _⟩ => ⟨S_, .f32⟩
  | .hbm, ⟨11, _⟩ => ⟨S4x65536, .f32⟩
  | .hbm, ⟨12, _⟩ => ⟨S4x65536x1, .f32⟩
  | .hbm, ⟨13, _⟩ => ⟨S256x3, .f32⟩
  | .hbm, ⟨14, _⟩ => ⟨S_, .f32⟩
  | .hbm, ⟨15, _⟩ => ⟨S256, .f32⟩
  | .hbm, ⟨16, _⟩ => ⟨S4x65536x256, .f32⟩
  | .hbm, ⟨17, _⟩ => ⟨S_, .f32⟩
  | .hbm, ⟨18, _⟩ => ⟨S4x65536x256, .f32⟩
  | .hbm, ⟨19, _⟩ => ⟨S4x65536x256, .f32⟩
  | .hbm, ⟨20, _⟩ => ⟨S4x65536x256, .f32⟩
  | .hbm, ⟨21, _⟩ => ⟨S4x65536x256, .f32⟩
  | .hbm, ⟨22, _⟩ => ⟨S1x1x256, .f32⟩
  | .hbm, ⟨23, _⟩ => ⟨S4x65536x256, .f32⟩
  | .hbm, ⟨24, _⟩ => ⟨S4x65536x256, .f32⟩
  | .hbm, ⟨25, _⟩ => ⟨S4x65536x256, .f32⟩
  | .hbm, ⟨26, _⟩ => ⟨S_, .f32⟩
  | .hbm, ⟨27, _⟩ => ⟨S4x65536x256, .f32⟩
  | .hbm, ⟨28, _⟩ => ⟨S4x65536x256, .f32⟩
  | .hbm, ⟨29, _⟩ => ⟨S1x1x256, .f32⟩
  | .hbm, ⟨30, _⟩ => ⟨S4x65536x256, .f32⟩
  | .hbm, ⟨31, _⟩ => ⟨S4x65536x256, .f32⟩
  | .hbm, ⟨32, _⟩ => ⟨S4x65536x256, .f32⟩
  | .hbm, ⟨33, _⟩ => ⟨S4x65536x256, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x65536x256_0_1_2 : S1x1x256.BroadcastsInDim S4x65536x256 (![0, 1, 2] : Fin 3 → Fin S4x65536x256.rank)
  reducesTo_S4x65536x3_S4x65536_d2 : S4x65536x3.ReducesTo [2] S4x65536
  h_S_ : 0 < S_.numel
  bcast_S4x65536_S4x65536x1_0_1 : S4x65536.BroadcastsInDim S4x65536x1 (![0, 1] : Fin 2 → Fin S4x65536x1.rank)
  reducesTo_S256x3_S256_d1 : S256x3.ReducesTo [1] S256
  bcast_S_S4x65536x256 : S_.BroadcastsInDim S4x65536x256 (![] : Fin 0 → Fin S4x65536x256.rank)
  bcast_S4x65536x1_S4x65536x256_0_1_2 : S4x65536x1.BroadcastsInDim S4x65536x256 (![0, 1, 2] : Fin 3 → Fin S4x65536x256.rank)
  dot_S4x65536x3_S256x3_S4x65536x256_2_1_01_0_n_n_wf : DotDims.WF S4x65536x3 S256x3 S4x65536x256 [2] [1] [0, 1] [0] [] []

variable [Facts₀]

def dot_S4x65536x3_S256x3_S4x65536x256_2_1_01_0_n_n : DotDims S4x65536x3 S256x3 S4x65536x256 where
  lhsContracting := [2]
  rhsContracting := [1]
  lhsNonContracting := [0, 1]
  rhsNonContracting := [0]
  lhsBatch := []
  rhsBatch := []
  wf := dot_S4x65536x3_S256x3_S4x65536x256_2_1_01_0_n_n_wf

class Facts : Prop extends Facts₀ where

variable [Facts]
-- ==== Proof.Layer.lean ====
/-
  The layer both programs compute, as one function of the five argument arrays.

  For a point `(b, n)` with coordinates `x[b, n, ·] ∈ ℝ³` and an output unit `o` with weights `W[o, ·]`, bias `β[o]`,
  centre `μ[o, ·]` and width `γ[o]`, the value is

      sin (⟨x, W[o]⟩ + β[o]) · exp (-½ · ((|x|² - 2 · ⟨x, μ[o]⟩) + |μ[o]|²) · γ[o]),

  every inner product and squared norm a sum over the three coordinates, every operation the extended reals' own.
  The bracket `(|x|² - 2⟨x, μ⟩) + |μ|²` is the squared distance `|x - μ|²` expanded; it is kept in the expanded,
  left-associated form because that is the form both programs evaluate, so no law of the extended reals beyond
  `0 + s = s` is needed to join them. The two factors `-½` and `2` are kept as their binary32 words: the same
  words on both sides, never evaluated.
-/
import Idealize.ShloMosaic.PureOps.Ideal
import Idealize.ShloMosaic.PureOps.Ideal.Laws
import Idealize.ShloMosaic.Lib.ValueIdx

noncomputable section

namespace Cert.Gabor

open Idealize.ShloMosaic Idealize.ShloMosaic.ValueIdx

/-- One feature from its five scalars: the phase `lin`, the point's squared norm `sq`, its inner product `cross`
    with the centre, the centre's squared norm `cen`, and the width `γ`. -/
def feature (lin sq cross cen γ : EReal) : EReal :=
  Ideal.sin lin * Ideal.exp ((Ideal.ofBits .f32 0xBF000000#32 * ((sq - Ideal.ofBits .f32 0x40000000#32 * cross) + cen)) * γ)

/-- The points `[4, 65536, 3]`, the per-unit triples `[256, 3]`, the per-unit scalars `[256]`, the result `[4, 65536, 256]`. -/
abbrev Pts : Shape := ⟨3, ![4, 65536, 3]⟩
abbrev Triples : Shape := ⟨2, ![256, 3]⟩
abbrev Scalars : Shape := ⟨1, ![256]⟩
abbrev Feats : Shape := ⟨3, ![4, 65536, 256]⟩

/-- The layer: entry `(b, n, o)` is the feature of point `(b, n)` at unit `o`. -/
def layer (x : FVec Ideal Pts .f32) (W : FVec Ideal Triples .f32) (β : FVec Ideal Scalars .f32)
    (μ : FVec Ideal Triples .f32) (γ : FVec Ideal Scalars .f32) : FVec Ideal Feats .f32 := fun i =>
  feature ((∑ k : Fin 3, x (ix3 (i 0) (i 1) k) * W (ix2 (i 2) k)) + β (ix1 (i 2)))
    (∑ k : Fin 3, x (ix3 (i 0) (i 1) k) * x (ix3 (i 0) (i 1) k))
    (∑ k : Fin 3, x (ix3 (i 0) (i 1) k) * μ (ix2 (i 2) k))
    (∑ k : Fin 3, μ (ix2 (i 2) k) * μ (ix2 (i 2) k))
    (γ (ix1 (i 2)))

end Cert.Gabor

end
-- ==== Proof.BlockFeature.lean ====
/-
  One grid point of the kernel: what the body stores at row `p`, column `q` of its `[8192, 256]` output block.

  The body holds a block of 8192 points (rows of `[8192, 3]`), the transposed weights and centres (`[3, 256]`), and three
  rows `[1, 256]`: the biases, the centres' squared norms and the widths. Its two matrix products into a zero accumulator
  are, at `(p, q)`, the inner products `∑ₖ x[p, k] · Wᵀ[k, q]` and `∑ₖ x[p, k] · μᵀ[k, q]`; its lane reduction of the
  squared block is `∑ₖ x[p, k]²`, kept as a column `[8192, 1]` and spread over the 256 columns; each row `[1, 256]` spread
  over the 8192 rows is read at `(0, q)`. The remaining operations are pointwise, so the stored value is `feature` of those
  five scalars.
-/
import proofs.«126149_j25477746000485_1_alg».proof.Proof.Gen.KernelIdeal.Skeleton
import proofs.«126149_j25477746000485_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.Gabor.Block

open Cert.KernelIdeal Idealize.ShloMosaic Idealize.ShloMosaic.ValueIdx

/-! ## The matrix product `[8192, 3] × [3, 256]` at an index -/

/-- The left operand's row is the result's row; -/
theorem lhs_row (i : S8192x256.Idx) (c : dot_S8192x3_S3x256_S8192x256_1_0_0_1_n_n.contr.Idx) :
    (dot_S8192x3_S3x256_S8192x256_1_0_0_1_n_n.lhsIdx i c 0).val = (i 0).val := by
  unfold DotDims.lhsIdx
  rw [dif_neg (show ¬(0 : Fin S8192x3.rank) ∈ dot_S8192x3_S3x256_S8192x256_1_0_0_1_n_n.lhsBatch by decide), dif_pos (show (0 : Fin S8192x3.rank) ∈ dot_S8192x3_S3x256_S8192x256_1_0_0_1_n_n.lhsNonContracting by decide)]
  rfl
/-- its column is the contracted coordinate; -/
theorem lhs_coord (i : S8192x256.Idx) (c : dot_S8192x3_S3x256_S8192x256_1_0_0_1_n_n.contr.Idx) :
    (dot_S8192x3_S3x256_S8192x256_1_0_0_1_n_n.lhsIdx i c 1).val = (c ⟨0, by decide⟩).val :=
  dot_S8192x3_S3x256_S8192x256_1_0_0_1_n_n.lhsIdx_val_of_single rfl i c
/-- the right operand's row is the contracted coordinate; -/
theorem rhs_coord (i : S8192x256.Idx) (c : dot_S8192x3_S3x256_S8192x256_1_0_0_1_n_n.contr.Idx) :
    (dot_S8192x3_S3x256_S8192x256_1_0_0_1_n_n.rhsIdx i c 0).val = (c ⟨0, by decide⟩).val :=
  dot_S8192x3_S3x256_S8192x256_1_0_0_1_n_n.rhsIdx_val_of_single rfl i c
/-- and its column is the result's column. -/
theorem rhs_col (i : S8192x256.Idx) (c : dot_S8192x3_S3x256_S8192x256_1_0_0_1_n_n.contr.Idx) :
    (dot_S8192x3_S3x256_S8192x256_1_0_0_1_n_n.rhsIdx i c 1).val = (i 1).val := by
  unfold DotDims.rhsIdx
  rw [dif_neg (show ¬(1 : Fin S3x256.rank) ∈ dot_S8192x3_S3x256_S8192x256_1_0_0_1_n_n.rhsBatch by decide), dif_pos (show (1 : Fin S3x256.rank) ∈ dot_S8192x3_S3x256_S8192x256_1_0_0_1_n_n.rhsNonContracting by decide)]
  rfl

/-- Into the zero accumulator, the product at `(p, q)` is the inner product of row `p` with column `q`. -/
theorem product_apply (A : FVec Ideal S8192x3 .f32) (B : FVec Ideal S3x256 .f32) (p : Fin 8192) (q : Fin 256) :
    matmul dot_S8192x3_S3x256_S8192x256_1_0_0_1_n_n none A B (constant (F := Ideal) S8192x256 .f32 0x00000000#32) (ix2 p q)
      = ∑ k : Fin 3, A (ix2 p k) * B (ix2 k q) := by
  simp only [matmul]
  rw [Ideal.matmul_constant_zero_apply, ← Equiv.sum_comp (contrEquiv1 dot_S8192x3_S3x256_S8192x256_1_0_0_1_n_n 3 rfl rfl).symm]
  refine Finset.sum_congr rfl fun k _ => ?_
  have hk := contrEquiv1_symm_val dot_S8192x3_S3x256_S8192x256_1_0_0_1_n_n 3 rfl rfl k
  have el : dot_S8192x3_S3x256_S8192x256_1_0_0_1_n_n.lhsIdx (ix2 p q) ((contrEquiv1 dot_S8192x3_S3x256_S8192x256_1_0_0_1_n_n 3 rfl rfl).symm k) = ix2 p k := funext fun a => Fin.ext (by
    match a with
    | ⟨0, _⟩ => exact lhs_row _ _
    | ⟨1, _⟩ => exact (lhs_coord _ _).trans hk)
  have er : dot_S8192x3_S3x256_S8192x256_1_0_0_1_n_n.rhsIdx (ix2 p q) ((contrEquiv1 dot_S8192x3_S3x256_S8192x256_1_0_0_1_n_n 3 rfl rfl).symm k) = ix2 k q := funext fun a => Fin.ext (by
    match a with
    | ⟨0, _⟩ => exact (rhs_coord _ _).trans hk
    | ⟨1, _⟩ => exact rhs_col _ _)
  rw [el, er]

/-! ## The row sums, kept as a column and spread over the columns -/

/-- A lane reduction of an `[8192, 3]` block from the zero word, at row `p`: the sum of the row's three entries. -/
theorem rowsum_apply (v : FVec Ideal S8192x3 .f32) (h : S8192x3.Reduces [1] S8192) (hφ : FKind.Formats .f32)
    (hacc : (0x00000000#32 : BitVec 32) = FKind.add.neutral .f32 hφ) (p : Fin 8192) :
    multiReduction .add [1] S8192 v 0x00000000#32 h hφ hacc (ix1 p) = ∑ k : Fin 3, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

variable {α : Type}

/-- An `[8192]` vector viewed as a column `[8192, 1]` reads, at `(p, u)`, the vector at `p`. -/
theorem column_apply (v : S8192.Idx → α) (h : S8192.ShapeCasts S8192x1) (p : Fin 8192) (u : Fin 1) :
    shapeCast S8192x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[8192, 1]` spread over 256 columns reads, at `(p, q)`, the column at `p`. -/
theorem spread_column_apply (v : S8192x1.Idx → α) (h : S8192x1.Broadcasts S8192x256) (p : Fin 8192) (q : Fin 256) :
    broadcastTo S8192x256 v h (ix2 p q) = v (ix2 p (0 : Fin 1)) := by
  refine broadcastTo_apply v h (ix2 p q) (ix2 p (0 : Fin 1)) fun ax => ?_
  match ax with
  | ⟨0, _⟩ => show p.val = if (8192 : Nat) = 1 then 0 else p.val; rw [if_neg (by decide)]
  | ⟨1, _⟩ => show 0 = if (1 : Nat) = 1 then 0 else q.val; rw [if_pos rfl]

/-- A row `[1, 256]` spread over 8192 rows reads, at `(p, q)`, the row at `q`. -/
theorem spread_row_apply (v : S1x256.Idx → α) (h : S1x256.Broadcasts S8192x256) (p : Fin 8192) (q : Fin 256) :
    broadcastTo S8192x256 v h (ix2 p q) = v (ix2 (0 : Fin 1) q) :=
  broadcastTo_1b_ab_apply v h p q

/-! ## The stored value -/

/-- What the body stores at `(p, q)`, from the six blocks it loads: the feature of point `p` of the block at unit `q`. -/
theorem stored_apply (x0 : Vec Ideal S8192x3 .f32) (wT cT : Vec Ideal S3x256 .f32) (b2 c2 g2 : Vec Ideal S1x256 .f32)
    (p : Fin 8192) (q : Fin 256) :
    Cert.KernelIdeal.Gen.k0_pay1 (F := Ideal) x0 wT cT b2 c2 g2 (ix2 p q) =
      feature ((∑ k : Fin 3, x0 (ix2 p k) * wT (ix2 k q)) + b2 (ix2 (0 : Fin 1) q))
        (∑ k : Fin 3, x0 (ix2 p k) * x0 (ix2 p k))
        (∑ k : Fin 3, x0 (ix2 p k) * cT (ix2 k q))
        (c2 (ix2 (0 : Fin 1) q)) (g2 (ix2 (0 : Fin 1) q)) := by
  unfold Cert.KernelIdeal.Gen.k0_pay1 feature
  simp only [shapeCast_self]
  refine congrArg₂ (· * ·) (congrArg Ideal.sin (congrArg₂ (· + ·) ?_ ?_))
    (congrArg Ideal.exp (congrArg₂ (· * ·) (congrArg₂ (· * ·) rfl
      (congrArg₂ (· + ·) (congrArg₂ (· - ·) ?_ (congrArg₂ (· * ·) rfl ?_)) ?_)) ?_))
  · exact product_apply _ _ p q
  · exact spread_row_apply _ _ p q
  · exact (spread_column_apply _ _ p q).trans ((column_apply _ _ p 0).trans (rowsum_apply _ _ _ _ p))
  · exact product_apply _ _ p q
  · exact spread_row_apply _ _ p q
  · exact spread_row_apply _ _ p q

end Cert.Gabor.Block

end
-- ==== Proof.FlatArray.lean ====
/-
  The kernel's result array, flat: after its 32 grid points the `[262144, 256]` array holds, at row `r` and column `q`,
  the feature of point `r` (a row of the flattened `[262144, 3]` points) at unit `q`, read off the six arrays the
  windows stage.

  Grid point `t` holds rows `8192·t … 8192·t + 8191` of the points and writes back the same rows of the result; the
  other five windows hold their whole (small) arrays at every point. So row `p` of point `t`'s block is row
  `r = 8192·t + p` of the array, and what the point writes back is the block of ONE function of the staged arrays
  (`flatLayer`). The 32 blocks tile the rows — row `r` lies in block `r / 8192` — so the array ends holding that function.
-/
import proofs.«126149_j25477746000485_1_alg».proof.Proof.Gen.KernelIdeal.Frame
import proofs.«126149_j25477746000485_1_alg».proof.Proof.BlockFeature

set_option maxRecDepth 16384

noncomputable section

namespace Cert.Gabor.Flat

open Cert.KernelIdeal Cert.KernelIdeal.Gen Idealize.ShloMosaic Idealize.ShloMosaic.TcCoe Idealize.ShloMosaic.ValueIdx
open Idealize.SL.Sem

/-- The feature of flat row `r` at unit `q`, from the staged arrays: the flattened points, the transposed weights and
    centres, and the rows of biases, centre norms and widths. -/
def flatAt (xf : FVec Ideal S262144x3 .f32) (wT cT : FVec Ideal S3x256 .f32) (b2 c2 g2 : FVec Ideal S1x256 .f32)
    (r : Fin 262144) (q : Fin 256) : EReal :=
  feature ((∑ k : Fin 3, xf (ix2 r k) * wT (ix2 k q)) + b2 (ix2 (0 : Fin 1) q))
    (∑ k : Fin 3, xf (ix2 r k) * xf (ix2 r k))
    (∑ k : Fin 3, xf (ix2 r k) * cT (ix2 k q))
    (c2 (ix2 (0 : Fin 1) q)) (g2 (ix2 (0 : Fin 1) q))

/-- The whole flat result. -/
def flatLayer (xf : FVec Ideal S262144x3 .f32) (wT cT : FVec Ideal S3x256 .f32) (b2 c2 g2 : FVec Ideal S1x256 .f32) :
    FVec Ideal S262144x256 .f32 := fun j => flatAt xf wT cT b2 c2 g2 (j 0) (j 1)

variable (m : (ℓ : Loc nD τ sig) → Buf (Elt Ideal) ℓ)

/-- The six staged arrays as the region finds them, at their literal types: the flattened points, the transposed
    weights, the transposed centres, and the rows of biases, centre norms and widths. -/
abbrev pointsArr (c : Dev nD) : FVec Ideal S262144x3 .f32 := V m c main_call0_v0
abbrev weightsArr (c : Dev nD) : FVec Ideal S3x256 .f32 := V m c main_call0_v1
abbrev centresArr (c : Dev nD) : FVec Ideal S3x256 .f32 := V m c main_call0_v2
abbrev biasArr (c : Dev nD) : FVec Ideal S1x256 .f32 := V m c main_call0_v6
abbrev normsArr (c : Dev nD) : FVec Ideal S1x256 .f32 := V m c main_call0_v5
abbrev widthsArr (c : Dev nD) : FVec Ideal S1x256 .f32 := V m c main_call0_v7

theorem hz : (![0, 0] : Fin 2 → Nat) = fun _ => 0 := funext fun a => by fin_cases a <;> rfl

/-- The index maps over the grid: the points' and the result's blocks move with the grid point along the rows; every
    other block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks a point holds -/

/-- Row `p` of point `t`'s block of points is row `8192·t + p` of the flattened points. -/
theorem points_block (c : Dev nD) (t : Fin cfg0.N) (p : Fin 8192) (k : Fin 3) (r : Fin 262144)
    (hr : r.val = t.val * 8192 + p.val) :
    (iblk m c 0 t : Vec Ideal S8192x3 .f32) (ix2 p k) = pointsArr m c (ix2 r k) := by
  obtain ⟨e0, e1, -⟩ := idx_facts t
  unfold iblk
  rw [View.read_apply]
  show V m c main_call0_v0 _ = V m c main_call0_v0 _
  congr 1
  funext a
  apply Fin.ext
  match a with
  | ⟨0, _⟩ => show win0_0.index t 0 * 8192 + 1 * p.val = r.val; rw [e0, hr]; omega
  | ⟨1, _⟩ => show win0_0.index t 1 * 3 + 1 * k.val = k.val; rw [e1]; omega

/-- The transposed weights' block is the whole array, at every point. -/
theorem weights_block (c : Dev nD) (t : Fin cfg0.N) (k : Fin 3) (q : Fin 256) :
    (iblk m c 1 t : Vec Ideal S3x256 .f32) (ix2 k q) = weightsArr m c (ix2 k q) := by
  obtain ⟨-, -, e0, e1, -⟩ := idx_facts t
  unfold iblk
  rw [View.read_apply]
  show V m c main_call0_v1 _ = V m c main_call0_v1 _
  congr 1
  funext a
  apply Fin.ext
  match a with
  | ⟨0, _⟩ => show win0_1.index t 0 * 3 + 1 * k.val = k.val; rw [e0]; omega
  | ⟨1, _⟩ => show win0_1.index t 1 * 256 + 1 * q.val = q.val; rw [e1]; omega

/-- So is the biases' row, -/
theorem bias_block (c : Dev nD) (t : Fin cfg0.N) (u : Fin 1) (q : Fin 256) :
    (iblk m c 2 t : Vec Ideal S1x256 .f32) (ix2 u q) = biasArr m c (ix2 u q) := by
  obtain ⟨-, -, -, -, e0, e1, -⟩ := idx_facts t
  unfold iblk
  rw [View.read_apply]
  show V m c main_call0_v6 _ = V m c main_call0_v6 _
  congr 1
  funext a
  apply Fin.ext
  match a with
  | ⟨0, _⟩ => show win0_2.index t 0 * 1 + 1 * u.val = u.val; rw [e0]; omega
  | ⟨1, _⟩ => show win0_2.index t 1 * 256 + 1 * q.val = q.val; rw [e1]; omega

/-- the transposed centres, -/
theorem centres_block (c : Dev nD) (t : Fin cfg0.N) (k : Fin 3) (q : Fin 256) :
    (iblk m c 3 t : Vec Ideal S3x256 .f32) (ix2 k q) = centresArr m c (ix2 k q) := by
  obtain ⟨-, -, -, -, -, -, e0, e1, -⟩ := idx_facts t
  unfold iblk
  rw [View.read_apply]
  show V m c main_call0_v2 _ = V m c main_call0_v2 _
  congr 1
  funext a
  apply Fin.ext
  match a with
  | ⟨0, _⟩ => show win0_3.index t 0 * 3 + 1 * k.val = k.val; rw [e0]; omega
  | ⟨1, _⟩ => show win0_3.index t 1 * 256 + 1 * q.val = q.val; rw [e1]; omega

/-- the centres' squared norms, -/
theorem norms_block (c : Dev nD) (t : Fin cfg0.N) (u : Fin 1) (q : Fin 256) :
    (iblk m c 4 t : Vec Ideal S1x256 .f32) (ix2 u q) = normsArr m c (ix2 u q) := by
  obtain ⟨-, -, -, -, -, -, -, -, e0, e1, -⟩ := idx_facts t
  unfold iblk
  rw [View.read_apply]
  show V m c main_call0_v5 _ = V m c main_call0_v5 _
  congr 1
  funext a
  apply Fin.ext
  match a with
  | ⟨0, _⟩ => show win0_4.index t 0 * 1 + 1 * u.val = u.val; rw [e0]; omega
  | ⟨1, _⟩ => show win0_4.index t 1 * 256 + 1 * q.val = q.val; rw [e1]; omega

/-- and the widths. -/
theorem widths_block (c : Dev nD) (t : Fin cfg0.N) (u : Fin 1) (q : Fin 256) :
    (iblk m c 5 t : Vec Ideal S1x256 .f32) (ix2 u q) = widthsArr m c (ix2 u q) := by
  obtain ⟨-, -, -, -, -, -, -, -, -, -, e0, e1, -⟩ := idx_facts t
  unfold iblk
  rw [View.read_apply]
  show V m c main_call0_v7 _ = V m c main_call0_v7 _
  congr 1
  funext a
  apply Fin.ext
  match a with
  | ⟨0, _⟩ => show win0_5.index t 0 * 1 + 1 * u.val = u.val; rw [e0]; omega
  | ⟨1, _⟩ => show win0_5.index t 1 * 256 + 1 * q.val = q.val; rw [e1]; omega

/-! ## What a point stores, as an entry of the flat result -/

/-- At point `t`, the value stored at `(p, q)` of the block is the flat result at row `8192·t + p`, column `q`. -/
theorem stored_eq_flat (c : Dev nD) (t : Fin cfg0.N) (p : Fin 8192) (q : Fin 256) (r : Fin 262144) (q' : Fin 256)
    (hr : r.val = t.val * 8192 + p.val) (hq : q' = q) :
    k0_pay1 (F := Ideal) (iblk m c 0 t) (iblk m c 1 t) (iblk m c 3 t) (iblk m c 2 t) (iblk m c 4 t) (iblk m c 5 t) (ix2 p q)
      = flatAt (pointsArr m c) (weightsArr m c) (centresArr m c) (biasArr m c) (normsArr m c) (widthsArr m c) r q' := by
  subst hq
  refine (Block.stored_apply (iblk m c 0 t) (iblk m c 1 t) (iblk m c 3 t) (iblk m c 2 t) (iblk m c 4 t) (iblk m c 5 t) p q').trans ?_
  unfold flatAt
  have hx : ∀ k : Fin 3, (iblk m c 0 t : Vec Ideal S8192x3 .f32) (ix2 p k) = pointsArr m c (ix2 r k) :=
    fun k => points_block m c t p k r hr
  refine congr (congr (congr (congr (congrArg feature ?_) ?_) ?_) ?_) ?_
  · exact congrArg₂ (· + ·) (Finset.sum_congr rfl fun k _ => congrArg₂ (· * ·) (hx k) (weights_block m c t k q'))
      (bias_block m c t 0 q')
  · exact Finset.sum_congr rfl fun k _ => congrArg₂ (· * ·) (hx k) (hx k)
  · exact Finset.sum_congr rfl fun k _ => congrArg₂ (· * ·) (hx k) (centres_block m c t k q')
  · exact norms_block m c t 0 q'
  · exact widths_block m c t 0 q'

/-! ## What a point writes back, the cover, and the array after the run -/

/-- What point `t` writes back is block `t` of the flat result. -/
theorem flushed_eq (c : Dev nD) (t : Fin cfg0.N) :
    (dats m 0 c).flushed 6 t = ((cfg0.win 6).blk t).view.read (Elt Ideal)
      (flatLayer (pointsArr m c) (weightsArr m c) (centresArr m c) (biasArr m c) (normsArr m c) (widthsArr m c)) := by
  show (cfg0.win 6).cut (grid0.coords t) ((dats m 0 c).after 6 t) = _
  rw [after0_6]
  unfold out0_6
  rw [View.canon_unit_zero hz]
  simp only [View.ld_unit_zero (S := S8192x3) hz, View.ld_unit_zero (S := S3x256) hz, View.ld_unit_zero (S := S1x256) hz]
  obtain ⟨-, -, -, -, -, -, -, -, -, -, -, -, e0, e1⟩ := idx_facts t
  funext j
  have hj0 : (j 0).val < 8192 := (j 0).isLt
  have hj1 : (j 1).val < 256 := (j 1).isLt
  show k0_pay1 (F := Ideal) (iblk m c 0 t) (iblk m c 1 t) (iblk m c 3 t) (iblk m c 2 t) (iblk m c 4 t) (iblk m c 5 t) j
    = flatAt (pointsArr m c) (weightsArr m c) (centresArr m c) (biasArr m c) (normsArr m c) (widthsArr m c)
        ((((cfg0.win 6).blk t).view.emb j) 0) ((((cfg0.win 6).blk t).view.emb j) 1)
  refine (congrArg (k0_pay1 (F := Ideal) (iblk m c 0 t) (iblk m c 1 t) (iblk m c 3 t) (iblk m c 2 t) (iblk m c 4 t) (iblk m c 5 t))
    (eq_ix2 (j : S8192x256.Idx))).trans ?_
  refine stored_eq_flat m c t (j 0) (j 1) _ _ ?_ ?_
  · show win0_6.index t 0 * 8192 + 1 * (j 0).val = t.val * 8192 + (j 0).val
    rw [e0]; omega
  · apply Fin.ext
    show win0_6.index t 1 * 256 + 1 * (j 1).val = (j 1).val
    rw [e1]; omega

/-- An index of the flat result is in point `t`'s block iff each coordinate is in the block's range on its axis. -/
theorem mem_blk (t : Fin cfg0.N) (i : S262144x256.Idx) :
    i ∈ ((cfg0.win 6).blk t).view.set ↔ ∀ a : Fin 2, win0_6.index t a * S8192x256.size a ≤ (i a).val ∧ (i a).val < win0_6.index t a * S8192x256.size a + S8192x256.size a := by
  show i ∈ ((View.whole main_call0_v8).slice (win0_6.rect t)).set ↔ _
  rw [View.set_slice_whole, Rect.mem_set_unit]
  exact Iff.rfl

/-- The 32 blocks tile the rows: row `r` is in the block of point `r / 8192`. -/
theorem cover (i : S262144x256.Idx) : ∃ t : Fin cfg0.N, (cfg0.win 6).flush t = true ∧ i ∈ ((cfg0.win 6).blk t).view.set := by
  have hi0 : (i 0).val < 262144 := (i 0).isLt
  have hi1 : (i 1).val < 256 := (i 1).isLt
  have hN : cfg0.N = 32 := N_0
  have hlt : (i 0).val / 8192 < cfg0.N := by rw [hN]; omega
  obtain ⟨-, -, -, -, -, -, -, -, -, -, -, -, e0, e1⟩ := idx_facts ⟨(i 0).val / 8192, hlt⟩
  refine ⟨⟨(i 0).val / 8192, hlt⟩, flush0_6 _, ?_⟩
  rw [mem_blk]
  intro a
  match a with
  | ⟨0, _⟩ =>
    show win0_6.index ⟨(i 0).val / 8192, hlt⟩ 0 * 8192 ≤ (i 0).val ∧ (i 0).val < win0_6.index ⟨(i 0).val / 8192, hlt⟩ 0 * 8192 + 8192
    rw [e0]
    show (i 0).val / 8192 * 8192 ≤ (i 0).val ∧ (i 0).val < (i 0).val / 8192 * 8192 + 8192
    omega
  | ⟨1, _⟩ =>
    show win0_6.index ⟨(i 0).val / 8192, hlt⟩ 1 * 256 ≤ (i 1).val ∧ (i 1).val < win0_6.index ⟨(i 0).val / 8192, hlt⟩ 1 * 256 + 256
    rw [e1]; omega

/-- After the run the result array holds the flat result of the staged arrays. -/
theorem final (c : Dev nD) : (dats m 0 c).arrAt 6 cfg0.N
    = flatLayer (pointsArr m c) (weightsArr m c) (centresArr m c) (biasArr m c) (normsArr m c) (widthsArr m c) :=
  (dats m 0 c).arrAt_eq_of_cover 6 _ (fun t _ => flushed_eq m c t) cover

end Cert.Gabor.Flat

end
-- ==== Proof.RegionEntry.lean ====
/-
  The six arrays the kernel's windows stage, as the host operations before the region leave them, read at an index.

  The points `[4, 65536, 3]` are flattened to `[262144, 3]`: flat row `65536·b + n` is point `(b, n)`. The weights and the
  centres `[256, 3]` are transposed to `[3, 256]`: entry `(k, o)` is entry `(o, k)`. The biases and the widths `[256]` become
  rows `[1, 256]`. The centres' squared norms are computed here, on the host — the centres squared entrywise, summed along
  the coordinate axis from a zero word, `0 + ∑ₖ μ[o, k]²`, which is `∑ₖ μ[o, k]²` — and handed to the kernel as a row.
-/
import proofs.«126149_j25477746000485_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gabor.Entry

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The five arguments at their literal types: points, weights, biases, centres, widths. -/
abbrev argPoints (c : Dev nD) : FVec Ideal S4x65536x3 .f32 := m ((c : Thread nD τ).loc main_arg0)
abbrev argWeights (c : Dev nD) : FVec Ideal S256x3 .f32 := m ((c : Thread nD τ).loc main_arg1)
abbrev argBias (c : Dev nD) : FVec Ideal S256 .f32 := m ((c : Thread nD τ).loc main_arg2)
abbrev argCentres (c : Dev nD) : FVec Ideal S256x3 .f32 := m ((c : Thread nD τ).loc main_arg3)
abbrev argWidths (c : Dev nD) : FVec Ideal S256 .f32 := m ((c : Thread nD τ).loc main_arg4)

/-! ## Each staged array as an operation of the arguments -/

theorem points_entry (c : Dev nD) : (V m c main_call0_v0 : FVec Ideal S262144x3 .f32)
    = shapeCast S262144x3 (argPoints m c) shapeCasts_S4x65536x3_S262144x3 := by
  show StableHlo.after hostOps0 (fun b => m (c, b)) (Proc.devRef .tc main_call0_v0) = _
  after_results
  rfl

theorem weights_entry (c : Dev nD) : (V m c main_call0_v1 : FVec Ideal S3x256 .f32)
    = transpose S3x256 [1, 0] (argWeights m c) transposes_S256x3_S3x256_1_0 := by
  show StableHlo.after hostOps0 (fun b => m (c, b)) (Proc.devRef .tc main_call0_v1) = _
  after_results
  rfl

theorem centres_entry (c : Dev nD) : (V m c main_call0_v2 : FVec Ideal S3x256 .f32)
    = transpose S3x256 [1, 0] (argCentres m c) transposes_S256x3_S3x256_1_0 := by
  show StableHlo.after hostOps0 (fun b => m (c, b)) (Proc.devRef .tc main_call0_v2) = _
  after_results
  rfl

theorem norms_entry (c : Dev nD) : (V m c main_call0_v5 : FVec Ideal S1x256 .f32)
    = shapeCast S1x256 (Host.reduceAdd (mulf (argCentres m c) (argCentres m c)) (constant (F := Ideal) S_ .f32 0x00000000#32)
        reducesTo_S256x3_S256_d1 h_S_) shapeCasts_S256_S1x256 := by
  show StableHlo.after hostOps0 (fun b => m (c, b)) (Proc.devRef .tc main_call0_v5) = _
  after_results
  rfl

theorem bias_entry (c : Dev nD) : (V m c main_call0_v6 : FVec Ideal S1x256 .f32)
    = shapeCast S1x256 (argBias m c) shapeCasts_S256_S1x256 := by
  show StableHlo.after hostOps0 (fun b => m (c, b)) (Proc.devRef .tc main_call0_v6) = _
  after_results
  rfl

theorem widths_entry (c : Dev nD) : (V m c main_call0_v7 : FVec Ideal S1x256 .f32)
    = shapeCast S1x256 (argWidths m c) shapeCasts_S256_S1x256 := by
  show StableHlo.after hostOps0 (fun b => m (c, b)) (Proc.devRef .tc main_call0_v7) = _
  after_results
  rfl

/-! ## Read at an index -/

/-- Flat row `65536·b + n` of the staged points is point `(b, n)`. -/
theorem points_at (c : Dev nD) (b : Fin 4) (n : Fin 65536) (k : Fin 3) (r : Fin 262144) (hr : r.val = b.val * 65536 + n.val) :
    (V m c main_call0_v0 : FVec Ideal S262144x3 .f32) (ix2 r k) = argPoints m c (ix3 b n k) := by
  rw [points_entry]
  refine shapeCast_apply _ _ (ix2 r k) (ix3 b n k) ?_
  rw [Shape.rowMajor_val_three, Shape.rowMajor_val_two]
  show (b.val * 65536 + n.val) * 3 + k.val = r.val * 3 + k.val
  rw [hr]

/-- The staged weights at `(k, o)` are the weights at `(o, k)`; -/
theorem weights_at (c : Dev nD) (k : Fin 3) (o : Fin 256) :
    (V m c main_call0_v1 : FVec Ideal S3x256 .f32) (ix2 k o) = argWeights m c (ix2 o k) := by
  rw [weights_entry]
  exact transpose_ix2_apply _ _ k o

/-- likewise the centres. -/
theorem centres_at (c : Dev nD) (k : Fin 3) (o : Fin 256) :
    (V m c main_call0_v2 : FVec Ideal S3x256 .f32) (ix2 k o) = argCentres m c (ix2 o k) := by
  rw [centres_entry]
  exact transpose_ix2_apply _ _ k o

/-- The staged bias row at `o` is the bias of unit `o`; -/
theorem bias_at (c : Dev nD) (u : Fin 1) (o : Fin 256) :
    (V m c main_call0_v6 : FVec Ideal S1x256 .f32) (ix2 u o) = argBias m c (ix1 o) := by
  rw [bias_entry]
  exact shapeCast_a_1a_apply _ _ u o

/-- likewise the widths. -/
theorem widths_at (c : Dev nD) (u : Fin 1) (o : Fin 256) :
    (V m c main_call0_v7 : FVec Ideal S1x256 .f32) (ix2 u o) = argWidths m c (ix1 o) := by
  rw [widths_entry]
  exact shapeCast_a_1a_apply _ _ u o

/-- The host's sum along the coordinate axis from the zero word, at unit `o`: the three entries' sum. -/
theorem rowsum_apply (y : FVec Ideal S256x3 .f32) (h' : S256x3.ReducesTo [1] S256) (h0 : 0 < S_.numel) (o : Fin 256) :
    Host.reduceAdd y (constant (F := Ideal) S_ .f32 0x00000000#32) h' h0 (ix1 o) = ∑ k : Fin 3, y (ix2 o k) := by
  simp only [Host.reduceAdd, Ideal.hostReduceAdd_def]
  rw [Ideal.hostReduceAdd_single h' (by decide)]
  show Ideal.ofBits .f32 0x00000000#32 + _ = _
  rw [Ideal.ofBits_zero_f32, zero_add]
  exact Finset.sum_congr rfl fun k _ => congrArg y (funext fun a => Fin.ext (by match a with | ⟨0, _⟩ => rfl | ⟨1, _⟩ => rfl))

/-- The staged norms row at `o` is the squared norm of centre `o`. -/
theorem norms_at (c : Dev nD) (u : Fin 1) (o : Fin 256) :
    (V m c main_call0_v5 : FVec Ideal S1x256 .f32) (ix2 u o)
      = ∑ k : Fin 3, argCentres m c (ix2 o k) * argCentres m c (ix2 o k) := by
  rw [norms_entry]
  refine (shapeCast_a_1a_apply _ _ u o).trans ?_
  exact rowsum_apply _ _ _ o

end Cert.Gabor.Entry

end
-- ==== Proof.KernelLayer.lean ====
/-
  The kernel program computes `layer`.

  After the region the program reshapes the flat `[262144, 256]` result to `[4, 65536, 256]`: entry `(b, n, o)` is the flat
  entry at row `65536·b + n`, column `o`. That flat entry is the feature of flat row `65536·b + n` at unit `o` of the staged
  arrays; reading each staged array back to the arguments — the flat row is point `(b, n)`, a transposed entry `(k, o)` is
  entry `(o, k)`, a row at `o` is the per-unit scalar at `o`, the staged norm is `∑ₖ μ[o, k]²` — gives the feature of
  point `(b, n)` at unit `o` of the arguments, which is `layer` there.
-/
import proofs.«126149_j25477746000485_1_alg».proof.Proof.FlatArray
import proofs.«126149_j25477746000485_1_alg».proof.Proof.RegionEntry

set_option maxRecDepth 16384

noncomputable section

namespace Cert.Gabor.Kernel

open Cert.KernelIdeal Cert.KernelIdeal.Gen Idealize.ShloMosaic Idealize.ShloMosaic.TcCoe Idealize.ShloMosaic.ValueIdx
open Idealize.ShloMosaic.StableHlo Idealize.SL.Sem
open Cert.Gabor.Flat Cert.Gabor.Entry

variable (m : (ℓ : Loc nD τ sig) → Buf (Elt Ideal) ℓ)

/-- The flat result at row `65536·b + n`, column `o`, read back to the arguments: the layer at `(b, n, o)`. -/
theorem flat_eq_layer (c : Dev nD) (b : Fin 4) (n : Fin 65536) (o : Fin 256) (r : Fin 262144)
    (hr : r.val = b.val * 65536 + n.val) :
    flatAt (pointsArr m c) (weightsArr m c) (centresArr m c) (biasArr m c) (normsArr m c) (widthsArr m c) r o
      = layer (argPoints m c) (argWeights m c) (argBias m c) (argCentres m c) (argWidths m c) (ix3 b n o) := by
  unfold flatAt
  show _ = feature ((∑ k : Fin 3, argPoints m c (ix3 b n k) * argWeights m c (ix2 o k)) + argBias m c (ix1 o))
    (∑ k : Fin 3, argPoints m c (ix3 b n k) * argPoints m c (ix3 b n k))
    (∑ k : Fin 3, argPoints m c (ix3 b n k) * argCentres m c (ix2 o k))
    (∑ k : Fin 3, argCentres m c (ix2 o k) * argCentres m c (ix2 o k))
    (argWidths m c (ix1 o))
  have hx : ∀ k : Fin 3, pointsArr m c (ix2 r k) = argPoints m c (ix3 b n k) := fun k => points_at m c b n k r hr
  refine congr (congr (congr (congr (congrArg feature ?_) ?_) ?_) ?_) ?_
  · exact congrArg₂ (· + ·) (Finset.sum_congr rfl fun k _ => congrArg₂ (· * ·) (hx k) (weights_at m c k o)) (bias_at m c 0 o)
  · exact Finset.sum_congr rfl fun k _ => congrArg₂ (· * ·) (hx k) (hx k)
  · exact Finset.sum_congr rfl fun k _ => congrArg₂ (· * ·) (hx k) (centres_at m c k o)
  · exact norms_at m c 0 o
  · exact widths_at m c 0 o

/-- The result buffer after the lines that follow the region: the layer of the arguments. -/
theorem result_eq_layer (c : Dev nD) :
    (Pipeline.afterTail₀ cfgs (dats m) 0 (V0 m) [hostOps1] c main_v0 : FVec Ideal S4x65536x256 .f32)
      = layer (argPoints m c) (argWeights m c) (argBias m c) (argCentres m c) (argWidths m c) := by
  unfold Pipeline.afterTail₀
  show StableHlo.after hostOps1 _ (Proc.devRef .tc main_v0) = _
  after_results
  have hA : (Pipeline.withArrays spec0 c (V0 m c) (fun w => (dats m 0 c).arrAt w cfg0.N) (Proc.devRef .tc main_call0_v8) : FVec Ideal S262144x256 .f32)
      = flatLayer (pointsArr m c) (weightsArr m c) (centresArr m c) (biasArr m c) (normsArr m c) (widthsArr m c) :=
    (Pipeline.withArrays_arr spec0 launch0.win.arr_inj c _ _ 6).trans (Flat.final m c)
  funext i
  obtain ⟨b, n, o, rfl⟩ : ∃ (b : Fin 4) (n : Fin 65536) (o : Fin 256), i = ix3 b n o := ⟨i 0, i 1, i 2, eq_ix3 i⟩
  have hlt : b.val * 65536 + n.val < 262144 := by have := b.isLt; have := n.isLt; omega
  refine (shapeCast_apply _ _ (ix3 b n o) (ix2 (⟨b.val * 65536 + n.val, hlt⟩ : Fin 262144) o) ?_).trans ?_
  · rw [Shape.rowMajor_val_three, Shape.rowMajor_val_two]
    show (b.val * 65536 + n.val) * 256 + o.val = (b.val * 65536 + n.val) * 256 + o.val
    rfl
  · exact (congrFun hA _).trans (flat_eq_layer m c b n o _ rfl)

/-- Every weakly fair execution of the kernel program terminates with the result buffer at the layer of the arguments
    and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
          = layer (argPoints m c) (argWeights m c) (argBias m c) (argCentres m c) (argWidths m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (result_eq_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Gabor.Kernel

end
-- ==== Proof.ReferenceLayer.lean ====
/-
  The reference computes `layer`.

  The reference evaluates the formula directly on the `[4, 65536, ·]` arrays: two contractions over the last axis
  (`⟨x, W[o]⟩`, `⟨x, μ[o]⟩`), two sums of squares over the last axis, each started from a zero word, and broadcasts of
  the per-unit vectors along the two point axes. Read at an index `(b, n, o)`, each broadcast picks coordinate `o`, each
  contraction and each sum of squares is the sum over the three coordinates, and the zero a sum starts from is absorbed
  (`0 + s = s`). What is left is `feature` of the five scalars, literally.
-/
import proofs.«126149_j25477746000485_1_alg».proof.Proof.Gen.ReferenceIdeal.Read
import proofs.«126149_j25477746000485_1_alg».proof.Proof.Layer

noncomputable section

namespace Cert.Gabor.Reference

open Cert.ReferenceIdeal Cert.ReferenceIdeal.Read Idealize.ShloMosaic Idealize.ShloMosaic.ValueIdx

/-- The point read by a contraction or a sum of squares at result index `(b, n, o)` and coordinate `k` is `(b, n, k)`. -/
theorem point_dot (i : S4x65536x256.Idx) (k : Fin 3) : lidx_main_v0 i k = ix3 (i 0) (i 1) k :=
  funext fun a => Fin.ext (by match a with | ⟨0, _⟩ => rfl | ⟨1, _⟩ => rfl | ⟨2, _⟩ => rfl)
theorem point_cross (i : S4x65536x256.Idx) (k : Fin 3) : lidx_main_v9 i k = ix3 (i 0) (i 1) k :=
  funext fun a => Fin.ext (by match a with | ⟨0, _⟩ => rfl | ⟨1, _⟩ => rfl | ⟨2, _⟩ => rfl)
theorem point_sq (i : S4x65536x256.Idx) (k : Fin 3) : idx_main_v5 (idx_main_v6 (idx_main_v12 i)) k = ix3 (i 0) (i 1) k :=
  funext fun a => Fin.ext (by match a with | ⟨0, _⟩ => rfl | ⟨1, _⟩ => rfl | ⟨2, _⟩ => rfl)

/-- The unit's triple read there is `(o, k)`. -/
theorem unit_dot (i : S4x65536x256.Idx) (k : Fin 3) : ridx_main_v0 i k = ix2 (i 2) k :=
  funext fun a => Fin.ext (by match a with | ⟨0, _⟩ => rfl | ⟨1, _⟩ => rfl)
theorem unit_cross (i : S4x65536x256.Idx) (k : Fin 3) : ridx_main_v9 i k = ix2 (i 2) k :=
  funext fun a => Fin.ext (by match a with | ⟨0, _⟩ => rfl | ⟨1, _⟩ => rfl)
theorem unit_sq (i : S4x65536x256.Idx) (k : Fin 3) : idx_main_v8 (idx_main_v14 (idx_main_v15 i)) k = ix2 (i 2) k :=
  funext fun a => Fin.ext (by match a with | ⟨0, _⟩ => rfl | ⟨1, _⟩ => rfl)

/-- The unit's scalar read through the two broadcasts is at `o`. -/
theorem unit_bias (i : S4x65536x256.Idx) : idx_main_v1 (idx_main_v2 i) = ix1 (i 2) :=
  funext fun a => Fin.ext (by match a with | ⟨0, _⟩ => rfl)
theorem unit_width (i : S4x65536x256.Idx) : idx_main_v20 (idx_main_v21 i) = ix1 (i 2) :=
  funext fun a => Fin.ext (by match a with | ⟨0, _⟩ => rfl)

/-- The reference's result, as a function of the five arguments, is the layer. -/
theorem result_eq_layer (x : FVec Ideal S4x65536x3 .f32) (W : FVec Ideal S256x3 .f32) (β : FVec Ideal S256 .f32)
    (μ : FVec Ideal S256x3 .f32) (γ : FVec Ideal S256 .f32) :
    val_main_v24 (F := Ideal) x W β μ γ = Cert.Gabor.layer x W β μ γ := by
  funext i
  rw [val_main_v24_apply, val_main_v17_apply, val_main_v3_apply, val_main_v0_apply, val_main_v2_apply, val_main_v1_apply,
    val_main_v23_apply, val_main_v22_apply, val_main_v19_apply, val_main_v18_apply, val_main_cst_2_apply,
    val_main_v16_apply, val_main_v13_apply, val_main_v12_apply, val_main_v6_apply, val_main_v5_apply, val_main_cst_apply,
    val_main_v11_apply, val_main_v10_apply, val_main_cst_1_apply, val_main_v9_apply,
    val_main_v15_apply, val_main_v14_apply, val_main_v8_apply, val_main_cst_0_apply,
    val_main_v21_apply, val_main_v20_apply]
  simp only [val_main_v4_apply, val_main_v7_apply, point_dot, point_cross, point_sq, unit_dot, unit_cross, unit_sq,
    unit_bias, unit_width, Ideal.mulf_def, Ideal.addf_def, Ideal.subf_def, Ideal.hostUnary_sin_def,
    Ideal.hostUnary_exp_def, Ideal.ofBits_def, Ideal.ofBits_zero_f32, zero_add]
  rfl

end Cert.Gabor.Reference

end
-- ==== Proof.lean ====
/-
  A Gabor layer: for points `x[b, n, ·] ∈ ℝ³` and 256 units with weights `W[o, ·]`, biases `β[o]`, centres `μ[o, ·]` and
  widths `γ[o]`, the result at `(b, n, o)` is

      sin (⟨x, W[o]⟩ + β[o]) · exp (-½ · ((|x|² - 2 · ⟨x, μ[o]⟩) + |μ[o]|²) · γ[o])

  (`Cert.Gabor.layer`, Proof/Layer.lean). The reference evaluates this on the `[4, 65536, ·]` arrays directly. The kernel
  program flattens the points to 262144 rows, transposes the weights and the centres, computes the centres' squared norms
  on the host, runs 32 grid points of 8192 rows each — two matrix products into a zero accumulator, a lane sum of squares,
  row and column broadcasts, and the pointwise sine, exponential and products — and reshapes the flat result back.
  Over the extended reals both are the same function of the arguments, index by index: a matrix product into zero and a
  contraction are the same three-term sum, a lane sum from the zero word and a host sum from a zero are the same three-term
  sum once `0 + s = s`, every re-layout reads one entry of its operand, and the pointwise operations are applied in the same
  order with the same two literal words. No law that could fail at an infinity is used, so the finiteness of the inputs is
  never opened.

  The three programs' runs: the kernel's two frames are the generated frame modules' theorems; the reference's is its run
  with the result dropped. The idealization rewrote nothing, so it has nothing to preserve. The two idealized programs'
  runs are stated with the same result, `layer` of the arguments: the kernel's by Proof/KernelLayer.lean (the block a grid
  point stores, Proof/BlockFeature.lean; the 32 blocks tiling the flat array, Proof/FlatArray.lean; the staged arrays read
  back to the arguments, Proof/RegionEntry.lean), the reference's by Proof/ReferenceLayer.lean.
-/
import proofs.«126149_j25477746000485_1_alg».proof.Defs
import proofs.«126149_j25477746000485_1_alg».proof.Proof.Gen.Kernel
import proofs.«126149_j25477746000485_1_alg».proof.Proof.Gen.Kernel.Skeleton
import proofs.«126149_j25477746000485_1_alg».proof.Proof.Gen.Kernel.Launch
import proofs.«126149_j25477746000485_1_alg».proof.Proof.Gen.Kernel.Points
import proofs.«126149_j25477746000485_1_alg».proof.Proof.Gen.Kernel.Frame
import proofs.«126149_j25477746000485_1_alg».proof.Proof.Gen.KernelIdeal
import proofs.«126149_j25477746000485_1_alg».proof.Proof.Gen.KernelIdeal.Skeleton
import proofs.«126149_j25477746000485_1_alg».proof.Proof.Gen.KernelIdeal.Launch
import proofs.«126149_j25477746000485_1_alg».proof.Proof.Gen.KernelIdeal.Points
import proofs.«126149_j25477746000485_1_alg».proof.Proof.Gen.KernelIdeal.Frame
import proofs.«126149_j25477746000485_1_alg».proof.Proof.Gen.ReferenceIdeal
import proofs.«126149_j25477746000485_1_alg».proof.Proof.Gen.Pre_finite_inputs
import proofs.«126149_j25477746000485_1_alg».proof.Proof.Gen.ReferenceIdeal.Run
import proofs.«126149_j25477746000485_1_alg».proof.Proof.Gen.ReferenceIdeal.Read
import proofs.«126149_j25477746000485_1_alg».proof.Proof.KernelLayer
import proofs.«126149_j25477746000485_1_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with `layer` of the arguments in their result
    buffers: the kernel's run states it of its own arguments, the reference's of its own, and the agreement carries the one
    to the other. -/
theorem algebraic : Cert.algebraic_KernelIdeal_ReferenceIdeal := by
  intro m ρ m' ρ' _ hagree
  refine ⟨fun c => Cert.Gabor.layer (Cert.Gabor.Entry.argPoints m c) (Cert.Gabor.Entry.argWeights m c)
    (Cert.Gabor.Entry.argBias m c) (Cert.Gabor.Entry.argCentres m c) (Cert.Gabor.Entry.argWidths m c),
    Cert.Gabor.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Gabor.Reference.result_eq_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
